-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_

variable [Facts]

def fn_part1 {F : FTy → Type} [FloatOps F] (main_v13 : IVec S_ 1) (main_v16 : IVec S2x16x2048x2048 1) : IVec S_ 1 :=
  let main_c_5 : IVec S_ 1 := constantI S_ 1 1#1
  let main_v17 : IVec S_ 1 := (fun x v => Host.reduce IntOp.andi x v reducesTo_S2x16x2048x2048_S_d0_1_2_3 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S2x16x2048x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x16x2048x2048 .f32 := Host.absf main_arg3
  let main_cst_4 : FVec F S_ .f32 := constant S_ .f32 0x7F800000#32
  let main_v15 : FVec F S2x16x2048x2048 .f32 := broadcastInDim S2x16x2048x2048 ![] bcast_S_S2x16x2048x2048 main_cst_4
  let main_v16 : IVec S2x16x2048x2048 1 := cmpf .olt main_v14 main_v15
  fn_part1 (F := F) main_v13 main_v16
-- ==== Kernel.lean ====
abbrev S2x16x2048x64 : Shape := ⟨4, ![2, 16, 2048, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S2x16x2048x64, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .f32⟩
  | .local _ .vmem, ⟨7, _⟩ => ⟨S1x1x512x2048, .f32⟩
  | .local _ .vmem, ⟨8, _⟩ => ⟨S1x1x512x64, .f32⟩
  | .local _ .vmem, ⟨9, _⟩ => ⟨S1x1x512x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x64 : S512x1.Broadcasts S512x64
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x16x2048x2048.size a
  hwx0_3 : ∀ i : grid0.Coords, EltTy.bits .f32 = 32 ∨ (Rect.block (s := S2x16x2048x2048) S1x1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S2x16x2048x2048, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S2x16x2048x1, .f32⟩
  | .hbm, ⟨10, _⟩ => ⟨S_, .f32⟩
  | .hbm, ⟨11, _⟩ => ⟨S2x16x2048x1, .f32⟩
  | .hbm, ⟨12, _⟩ => ⟨S2x16x2048x1, .f32⟩
  | .hbm, ⟨13, _⟩ => ⟨S2x16x2048x2048, .f32⟩
  | .hbm, ⟨14, _⟩ => ⟨S2x16x2048x2048, .f32⟩
  | .hbm, ⟨15, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Layout.lean ====
/-
  Re-layings read at an index.

  A block `[1, 1, a, b]` seen as a matrix `[a, b]` and back, a vector `[a]` stood up as a column `[a, 1]`, and a
  column `[a, 1]` repeated across `b` columns: each reads its operand at the index with the same row-major position,
  the unit coordinates being `0`.
-/
import Idealize.ShloMosaic.Lib.Pipeline.Value
import Idealize.ShloMosaic.Lib.ValueIdx

noncomputable section

namespace Cert.Layout

open Idealize.ShloMosaic Idealize.ShloMosaic.ValueIdx

variable {α : Type}

/-- A `[1, 1, a, b]` array seen as `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array seen as `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

/-- A vector `[a]` stood up as the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout

end
-- ==== Proof.BlockValue.lean ====
/-
  What one grid point computes, index by index.

  At a grid point the body holds a `[512, 64]` tile of `q`, the whole `[2048, 64]` slabs of `k` and `v` of its batch and
  head, and a `[512, 2048]` tile of the mask (each with two leading unit axes). Over the extended reals the narrowing
  to bf16 is the identity, so the tile it stores is, at row `p` and column `d`,
      (∑ j, a(p, j) · v[j, d]) / max (∑ j, |a(p, j)|) 1,     a(p, j) = (∑ e, q[p, e] · k[j, e]) · mask[p, j] :
  the first product contracts the LAST axis of both operands (`q kᵀ`), the second is a plain matrix product, the row sum
  is a lane reduction stood up as a column and repeated across the 64 columns.
-/
import proofs.«400306_j38517266710798_3_alg».proof.Proof.Gen.KernelIdeal.Skeleton
import proofs.«400306_j38517266710798_3_alg».proof.Proof.Layout
import Idealize.ShloMosaic.PureOps.Ideal.Laws
import Idealize.ShloMosaic.Lib.ValueIdx
import Idealize.ShloMosaic.Lib.Pipeline.Value

noncomputable section

namespace Cert.KernelIdeal.BlockValue

open Cert.KernelIdeal Cert.KernelIdeal.Gen Cert.Layout Idealize.ShloMosaic Idealize.ShloMosaic.ValueIdx
open scoped BigOperators

/-! ## The score product `q kᵀ`: both operands contract their last axis -/

theorem qk_lhs_0 (i : S512x2048.Idx) (c : dot_S512x64_S2048x64_S512x2048_1_1_0_0_n_n.contr.Idx) :
    (dot_S512x64_S2048x64_S512x2048_1_1_0_0_n_n.lhsIdx i c 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_lhs_1 (i : S512x2048.Idx) (c : dot_S512x64_S2048x64_S512x2048_1_1_0_0_n_n.contr.Idx) :
    (dot_S512x64_S2048x64_S512x2048_1_1_0_0_n_n.lhsIdx i c 1).val = (c ⟨0, by decide⟩).val :=
  dot_S512x64_S2048x64_S512x2048_1_1_0_0_n_n.lhsIdx_val_of_single rfl i c
theorem qk_rhs_0 (i : S512x2048.Idx) (c : dot_S512x64_S2048x64_S512x2048_1_1_0_0_n_n.contr.Idx) :
    (dot_S512x64_S2048x64_S512x2048_1_1_0_0_n_n.rhsIdx i c 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qk_rhs_1 (i : S512x2048.Idx) (c : dot_S512x64_S2048x64_S512x2048_1_1_0_0_n_n.contr.Idx) :
    (dot_S512x64_S2048x64_S512x2048_1_1_0_0_n_n.rhsIdx i c 1).val = (c ⟨0, by decide⟩).val :=
  dot_S512x64_S2048x64_S512x2048_1_1_0_0_n_n.rhsIdx_val_of_single rfl i c

/-- Entry `(p, j)` of `l rᵀ` accumulated into zero: the sum over the 64 shared columns. -/
theorem qk_apply {φ₁ φ₂ : FTy} (l : FVec Ideal S512x64 φ₁) (r : FVec Ideal S2048x64 φ₂) (p : Fin 512) (j : Fin 2048) :
    matmul dot_S512x64_S2048x64_S512x2048_1_1_0_0_n_n none l r (constant (F := Ideal) S512x2048 .f32 0x00000000#32) (ix2 p j)
      = ∑ e : Fin 64, l (ix2 p e) * r (ix2 j e) := by
  simp only [matmul]
  rw [Ideal.matmul_constant_zero_apply, ← Equiv.sum_comp (contrEquiv1 dot_S512x64_S2048x64_S512x2048_1_1_0_0_n_n 64 rfl rfl).symm]
  refine Finset.sum_congr rfl fun e _ => ?_
  have he := contrEquiv1_symm_val dot_S512x64_S2048x64_S512x2048_1_1_0_0_n_n 64 rfl rfl e
  have el : dot_S512x64_S2048x64_S512x2048_1_1_0_0_n_n.lhsIdx (ix2 p j) ((contrEquiv1 dot_S512x64_S2048x64_S512x2048_1_1_0_0_n_n 64 rfl rfl).symm e) = ix2 p e := funext fun a => Fin.ext (by
    match a with
    | ⟨0, _⟩ => exact qk_lhs_0 _ _
    | ⟨1, _⟩ => exact (qk_lhs_1 _ _).trans he)
  have er : dot_S512x64_S2048x64_S512x2048_1_1_0_0_n_n.rhsIdx (ix2 p j) ((contrEquiv1 dot_S512x64_S2048x64_S512x2048_1_1_0_0_n_n 64 rfl rfl).symm e) = ix2 j e := funext fun a => Fin.ext (by
    match a with
    | ⟨0, _⟩ => exact qk_rhs_0 _ _
    | ⟨1, _⟩ => exact (qk_rhs_1 _ _).trans he)
  rw [el, er]

/-! ## The product with `v`: a plain matrix product -/

theorem pv_lhs_0 (i : S512x64.Idx) (c : dot_S512x2048_S2048x64_S512x64_1_0_0_1_n_n.contr.Idx) :
    (dot_S512x2048_S2048x64_S512x64_1_0_0_1_n_n.lhsIdx i c 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs_1 (i : S512x64.Idx) (c : dot_S512x2048_S2048x64_S512x64_1_0_0_1_n_n.contr.Idx) :
    (dot_S512x2048_S2048x64_S512x64_1_0_0_1_n_n.lhsIdx i c 1).val = (c ⟨0, by decide⟩).val :=
  dot_S512x2048_S2048x64_S512x64_1_0_0_1_n_n.lhsIdx_val_of_single rfl i c
theorem pv_rhs_0 (i : S512x64.Idx) (c : dot_S512x2048_S2048x64_S512x64_1_0_0_1_n_n.contr.Idx) :
    (dot_S512x2048_S2048x64_S512x64_1_0_0_1_n_n.rhsIdx i c 0).val = (c ⟨0, by decide⟩).val :=
  dot_S512x2048_S2048x64_S512x64_1_0_0_1_n_n.rhsIdx_val_of_single rfl i c
theorem pv_rhs_1 (i : S512x64.Idx) (c : dot_S512x2048_S2048x64_S512x64_1_0_0_1_n_n.contr.Idx) :
    (dot_S512x2048_S2048x64_S512x64_1_0_0_1_n_n.rhsIdx i c 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Entry `(p, d)` of `l r` accumulated into zero: the sum over the 2048 key rows. -/
theorem pv_apply {φ₁ φ₂ : FTy} (l : FVec Ideal S512x2048 φ₁) (r : FVec Ideal S2048x64 φ₂) (p : Fin 512) (d : Fin 64) :
    matmul dot_S512x2048_S2048x64_S512x64_1_0_0_1_n_n none l r (constant (F := Ideal) S512x64 .f32 0x00000000#32) (ix2 p d)
      = ∑ j : Fin 2048, l (ix2 p j) * r (ix2 j d) := by
  simp only [matmul]
  rw [Ideal.matmul_constant_zero_apply, ← Equiv.sum_comp (contrEquiv1 dot_S512x2048_S2048x64_S512x64_1_0_0_1_n_n 2048 rfl rfl).symm]
  refine Finset.sum_congr rfl fun j _ => ?_
  have hj := contrEquiv1_symm_val dot_S512x2048_S2048x64_S512x64_1_0_0_1_n_n 2048 rfl rfl j
  have el : dot_S512x2048_S2048x64_S512x64_1_0_0_1_n_n.lhsIdx (ix2 p d) ((contrEquiv1 dot_S512x2048_S2048x64_S512x64_1_0_0_1_n_n 2048 rfl rfl).symm j) = ix2 p j := funext fun a => Fin.ext (by
    match a with
    | ⟨0, _⟩ => exact pv_lhs_0 _ _
    | ⟨1, _⟩ => exact (pv_lhs_1 _ _).trans hj)
  have er : dot_S512x2048_S2048x64_S512x64_1_0_0_1_n_n.rhsIdx (ix2 p d) ((contrEquiv1 dot_S512x2048_S2048x64_S512x64_1_0_0_1_n_n 2048 rfl rfl).symm j) = ix2 j d := funext fun a => Fin.ext (by
    match a with
    | ⟨0, _⟩ => exact (pv_rhs_0 _ _).trans hj
    | ⟨1, _⟩ => exact pv_rhs_1 _ _)
  rw [el, er]

/-! ## The row sum -/

/-- The lane reduction of a `[512, 2048]` tile, at row `p`: the sum of the row's 2048 entries. -/
theorem rowsum_apply (x : FVec Ideal S512x2048 .f32) (h : S512x2048.Reduces [1] S512) (hφ : FKind.Formats .f32)
    (hacc : (0x00000000#32 : BitVec (FTy.bits .f32)) = FKind.add.neutral .f32 hφ) (p : Fin 512) :
    multiReduction .add [1] S512 x 0x00000000#32 h hφ hacc (ix1 p) = ∑ j : Fin 2048, x (ix2 p j) := by
  refine (Ideal.multiReduction_add_single x 0x00000000#32 h hφ hacc (ix1 p)).trans ?_
  refine Finset.sum_congr rfl fun j _ => congrArg x ?_
  exact funext fun a => Fin.ext (by match a with | ⟨0, _⟩ => rfl | ⟨1, _⟩ => rfl)

/-! ## The tile -/

section
variable (xq : FVec Ideal S1x1x512x64 .f32) (xk : FVec Ideal S1x1x2048x64 .f32) (xm : FVec Ideal S1x1x512x2048 .f32)
  (xv : FVec Ideal S1x1x2048x64 .f32)

/-- The masked score of the tile's row `p` against key row `j`. -/
def tileScore (p : Fin 512) (j : Fin 2048) : EReal :=
  (∑ e : Fin 64, xq (ix4 (0 : Fin 1) (0 : Fin 1) p e) * xk (ix4 (0 : Fin 1) (0 : Fin 1) j e)) * xm (ix4 (0 : Fin 1) (0 : Fin 1) p j)

/-- The normaliser of the tile's row `p`. -/
def tileNorm (p : Fin 512) : EReal :=
  max (∑ j : Fin 2048, max (tileScore xq xk xm p j) (-tileScore xq xk xm p j)) (Ideal.ofBits .f32 0x3F800000#32)

/-- The masked scores as the body forms them, read at `(p, j)`. -/
theorem maskedScore_apply (hq : S1x1x512x64.ShapeCasts S512x64) (hk : S1x1x2048x64.ShapeCasts S2048x64)
    (hm : S1x1x512x2048.ShapeCasts S512x2048) (hb : FTy.bits .bf16 < FTy.bits .f32) (p : Fin 512) (j : Fin 2048) :
    mulf (matmul dot_S512x64_S2048x64_S512x2048_1_1_0_0_n_n none (truncf .bf16 (shapeCast S512x64 xq hq) hb) (truncf .bf16 (shapeCast S2048x64 xk hk) hb)
        (constant (F := Ideal) S512x2048 .f32 0x00000000#32)) (shapeCast S512x2048 xm hm) (ix2 p j)
      = tileScore xq xk xm p j := by
  refine (mulf_apply _ _ _).trans ?_
  rw [qk_apply, shapeCast_11ab_ab_apply]
  unfold tileScore
  refine congrArg (· * _) (Finset.sum_congr rfl fun e _ => ?_)
  show shapeCast S512x64 xq hq (ix2 p e) * shapeCast S2048x64 xk hk (ix2 j e) = _
  rw [shapeCast_11ab_ab_apply, shapeCast_11ab_ab_apply]

/-- THE TILE: what the body stores, at `(0, 0, p, d)`. -/
theorem tile_apply (u u' : Fin 1) (p : Fin 512) (d : Fin 64) :
    k0_pay1 (F := Ideal) xq xk xm xv (ix4 u u' p d)
      = Ideal.div (∑ j : Fin 2048, tileScore xq xk xm p j * xv (ix4 (0 : Fin 1) (0 : Fin 1) j d)) (tileNorm xq xk xm p) := by
  unfold k0_pay1
  dsimp only
  refine (shapeCast_ab_11ab_apply _ _ u u' p d).trans ?_
  refine (divf_apply _ _ _).trans ?_
  refine congrArg₂ Ideal.div ?_ ?_
  · refine (pv_apply _ _ p d).trans (Finset.sum_congr rfl fun j _ => ?_)
    refine congrArg₂ (· * ·) (maskedScore_apply xq xk xm _ _ _ _ p j) ?_
    exact shapeCast_11ab_ab_apply _ _ j d
  · refine (broadcastTo_a1_ab_apply _ _ p d).trans ?_
    refine (maximumf_apply _ _ _).trans ?_
    unfold tileNorm
    refine congrArg₂ max ?_ rfl
    refine (shapeCast_a_a1_apply _ _ p (0 : Fin 1)).trans ?_
    refine (rowsum_apply _ _ _ _ p).trans (Finset.sum_congr rfl fun j _ => ?_)
    exact congrArg (fun x : EReal => max x (-x)) (maskedScore_apply xq xk xm _ _ _ _ p j)

end

end Cert.KernelIdeal.BlockValue

end
-- ==== Proof.Retention.lean ====
/-
  Linear retention, as one function of the four argument arrays.

  For a batch `b`, a head `h`, a query row `s` and a key row `j` the MASKED SCORE is
      a(s, j) = (∑ e, q[b,h,s,e] · k[b,h,j,e]) · mask[b,h,s,j],
  the NORMALISER of row `s` is  r(s) = max (∑ j, |a(s, j)|) 1  (with |x| spelt `max x (-x)`), and the result is
      out[b,h,s,d] = (∑ j, a(s, j) · v[b,h,j,d]) / r(s)            (divide the small product once), or
      out[b,h,s,d] = ∑ j, (a(s, j) / r(s)) · v[b,h,j,d]            (normalise the scores first).
  The two agree whenever every entry is a real number: then each a(s, j) is real, r(s) is a real that is at least 1,
  division by it is multiplication by its reciprocal, and the reciprocal moves across the finite sum. On the extended
  reals the step across the sum is false at the infinities, which is why finiteness of the inputs is used.
-/
import Idealize.ShloMosaic.PureOps.Ideal
import Idealize.ShloMosaic.PureOps.Ideal.Laws
import Idealize.ShloMosaic.Lib.ValueIdx

noncomputable section

namespace Cert.Retention

open Idealize.ShloMosaic Idealize.ShloMosaic.ValueIdx
open scoped BigOperators

/-- The shape of `q`, `k`, `v` and of the result. -/
abbrev Sqkv : Shape := ⟨4, ![2, 16, 2048, 64]⟩
/-- The shape of the mask. -/
abbrev Smask : Shape := ⟨4, ![2, 16, 2048, 2048]⟩

/-! ## Real entries -/

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.neg {x : EReal} (hx : IsReal x) : IsReal (-x) := by
  obtain ⟨a, rfl⟩ := hx; exact ⟨-a, (EReal.coe_neg a).symm⟩

/-- The coercion commutes with `max`: it is monotone. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem IsReal.max {x y : EReal} (hx : IsReal x) (hy : IsReal y) : IsReal (max x y) := by
  obtain ⟨a, rfl⟩ := hx; obtain ⟨b, rfl⟩ := hy; exact ⟨_, coe_max a b⟩

/-- A finite sum of reals, coerced term by term, is the coerced sum. -/
theorem coe_sum {ι : Type} (s : Finset ι) (f : ι → ℝ) : ∑ j ∈ s, (f j : EReal) = ((∑ j ∈ s, f j : ℝ) : EReal) := by
  classical
  refine Finset.induction_on s (by simp) fun a s ha ih => ?_
  rw [Finset.sum_insert ha, Finset.sum_insert ha, ih, EReal.coe_add]

theorem IsReal.sum {ι : Type} (s : Finset ι) (f : ι → EReal) (hf : ∀ j, IsReal (f j)) : IsReal (∑ j ∈ s, f j) := by
  choose g hg using hf
  exact ⟨∑ j ∈ s, g j, by rw [← coe_sum]; exact Finset.sum_congr rfl fun j _ => hg j⟩

/-! ## The law: a real divisor moves across a finite sum of real products -/

theorem div_sum_eq_sum_div {n : ℕ} (a w : Fin n → ℝ) (r : ℝ) (hr : r ≠ 0) :
    Ideal.div (∑ j, (a j : EReal) * (w j : EReal)) (r : EReal) = ∑ j, Ideal.div (a j : EReal) (r : EReal) * (w j : EReal) := by
  simp only [Ideal.div_coe hr, ← EReal.coe_mul]
  rw [coe_sum, coe_sum, ← EReal.coe_mul, Finset.sum_mul]
  exact congrArg _ (Finset.sum_congr rfl fun j _ => by ring)

/-! ## The function -/

section
variable (q k v : Sqkv.Idx → EReal) (mk : Smask.Idx → EReal)

/-- The masked score of query row `s` against key row `j`. -/
def score (b : Fin 2) (h : Fin 16) (s j : Fin 2048) : EReal :=
  (∑ e : Fin 64, q (ix4 b h s e) * k (ix4 b h j e)) * mk (ix4 b h s j)

/-- The normaliser of query row `s`: the row's absolute scores summed, clamped below by the float `1.0`. -/
def norm (b : Fin 2) (h : Fin 16) (s : Fin 2048) : EReal :=
  max (∑ j : Fin 2048, max (score q k mk b h s j) (-score q k mk b h s j)) (Ideal.ofBits .f32 0x3F800000#32)

/-- The result, dividing the product with `v` once. -/
def outAt (b : Fin 2) (h : Fin 16) (s : Fin 2048) (d : Fin 64) : EReal :=
  Ideal.div (∑ j : Fin 2048, score q k mk b h s j * v (ix4 b h j d)) (norm q k mk b h s)

/-- The result, normalising every score first. -/
def outAt' (b : Fin 2) (h : Fin 16) (s : Fin 2048) (d : Fin 64) : EReal :=
  ∑ j : Fin 2048, Ideal.div (score q k mk b h s j) (norm q k mk b h s) * v (ix4 b h j d)

/-- The whole result array. -/
def out : Sqkv.Idx → EReal := fun i => outAt q k v mk (i 0) (i 1) (i 2) (i 3)

/-- The float `1.0` is the real `1`. -/
theorem one_f32 : Ideal.ofBits .f32 0x3F800000#32 = ((1 : ℝ) : EReal) := by
  simp [Ideal.ofBits, Ideal.ieee, -EReal.coe_mul]; norm_num

variable {q k v mk}

theorem score_isReal (hq : ∀ i, IsReal (q i)) (hk : ∀ i, IsReal (k i)) (hm : ∀ i, IsReal (mk i))
    (b : Fin 2) (h : Fin 16) (s j : Fin 2048) : IsReal (score q k mk b h s j) :=
  (IsReal.sum _ _ fun e => (hq _).mul (hk _)).mul (hm _)

/-- The normaliser is a real number, and at least 1. -/
theorem norm_real (hq : ∀ i, IsReal (q i)) (hk : ∀ i, IsReal (k i)) (hm : ∀ i, IsReal (mk i))
    (b : Fin 2) (h : Fin 16) (s : Fin 2048) : ∃ r : ℝ, 1 ≤ r ∧ norm q k mk b h s = (r : EReal) := by
  obtain ⟨x, hx⟩ := IsReal.sum Finset.univ (fun j : Fin 2048 => Max.max (score q k mk b h s j) (-score q k mk b h s j))
    fun j => (score_isReal hq hk hm b h s j).max (score_isReal hq hk hm b h s j).neg
  refine ⟨Max.max x 1, le_max_right _ _, ?_⟩
  unfold norm
  rw [hx, one_f32, coe_max]

/-- With real entries the two forms of the result agree. -/
theorem outAt'_eq (hq : ∀ i, IsReal (q i)) (hk : ∀ i, IsReal (k i)) (hv : ∀ i, IsReal (v i)) (hm : ∀ i, IsReal (mk i))
    (b : Fin 2) (h : Fin 16) (s : Fin 2048) (d : Fin 64) : outAt' q k v mk b h s d = outAt q k v mk b h s d := by
  obtain ⟨r, hr1, hr⟩ := norm_real hq hk hm b h s
  choose a ha using fun j => score_isReal hq hk hm b h s j
  choose w hw using fun j : Fin 2048 => hv (ix4 b h j d)
  unfold outAt' outAt
  rw [hr]
  simp only [ha, hw]
  exact (div_sum_eq_sum_div a w r (by linarith)).symm

end

end Cert.Retention

end
-- ==== Proof.KernelArray.lean ====
/-
  From tiles to the array.

  Grid point `t = (b, h, i)` reads rows `512·i … 512·i + 511` of `q` and of the mask and the whole `k` and `v` of batch
  `b` and head `h`, and writes rows `512·i … 512·i + 511` of the result: so the tile it writes is the retention function
  of the four argument arrays restricted to those rows. The 2·16·4 tiles cover the result array, which therefore ends
  holding that function everywhere.
-/
import proofs.«400306_j38517266710798_3_alg».proof.Proof.Gen.KernelIdeal.Value
import proofs.«400306_j38517266710798_3_alg».proof.Proof.BlockValue
import proofs.«400306_j38517266710798_3_alg».proof.Proof.Retention

set_option maxRecDepth 16384

noncomputable section

namespace Cert.KernelIdeal.ArrayValue

open Cert.KernelIdeal Cert.KernelIdeal.Gen Cert.KernelIdeal.BlockValue Idealize.ShloMosaic Idealize.ShloMosaic.TcCoe
open Idealize.ShloMosaic.ValueIdx Idealize.SL.Sem
open Idealize.ShloMosaic.Pipeline (Dat)
open scoped BigOperators

/-! ## A tile of the function -/

/-- If the tile's `q` and mask rows are rows `s` of the arrays at batch `b`, head `h`, and its `k` and `v` slabs are the
    arrays' at `b`, `h`, then what the body stores at row `p`, column `d` is the retention function at `(b, h, s, d)`. -/
theorem tile_eq_out (Q K W : FVec Ideal S2x16x2048x64 .f32) (M : FVec Ideal S2x16x2048x2048 .f32)
    (xq : FVec Ideal S1x1x512x64 .f32) (xk : FVec Ideal S1x1x2048x64 .f32) (xm : FVec Ideal S1x1x512x2048 .f32)
    (xv : FVec Ideal S1x1x2048x64 .f32) (y : S1x1x512x64.Idx) (i : S2x16x2048x64.Idx)
    (hq : ∀ e : Fin 64, xq (ix4 (0 : Fin 1) (0 : Fin 1) (y 2) e) = Q (ix4 (i 0) (i 1) (i 2) e))
    (hk : ∀ (j : Fin 2048) (e : Fin 64), xk (ix4 (0 : Fin 1) (0 : Fin 1) j e) = K (ix4 (i 0) (i 1) j e))
    (hv : ∀ j : Fin 2048, xv (ix4 (0 : Fin 1) (0 : Fin 1) j (y 3)) = W (ix4 (i 0) (i 1) j (i 3)))
    (hm : ∀ j : Fin 2048, xm (ix4 (0 : Fin 1) (0 : Fin 1) (y 2) j) = M (ix4 (i 0) (i 1) (i 2) j)) :
    k0_pay1 (F := Ideal) xq xk xm xv y = Cert.Retention.out Q K W M i := by
  obtain ⟨u, u', p, d, rfl⟩ : ∃ (u u' : Fin 1) (p : Fin 512) (d : Fin 64), y = ix4 u u' p d := ⟨y 0, y 1, y 2, y 3, eq_ix4 y⟩
  obtain ⟨b, h, s, d', rfl⟩ : ∃ (b : Fin 2) (h : Fin 16) (s : Fin 2048) (d' : Fin 64), i = ix4 b h s d' :=
    ⟨i 0, i 1, i 2, i 3, eq_ix4 i⟩
  have hq' : ∀ e : Fin 64, xq (ix4 (0 : Fin 1) (0 : Fin 1) p e) = Q (ix4 b h s e) := hq
  have hk' : ∀ (j : Fin 2048) (e : Fin 64), xk (ix4 (0 : Fin 1) (0 : Fin 1) j e) = K (ix4 b h j e) := hk
  have hv' : ∀ j : Fin 2048, xv (ix4 (0 : Fin 1) (0 : Fin 1) j d) = W (ix4 b h j d') := hv
  have hm' : ∀ j : Fin 2048, xm (ix4 (0 : Fin 1) (0 : Fin 1) p j) = M (ix4 b h s j) := hm
  have hs : ∀ j : Fin 2048, tileScore xq xk xm p j = Cert.Retention.score Q K M b h s j := fun j => by
    unfold tileScore Cert.Retention.score
    rw [hm' j]
    exact congrArg (· * _) (Finset.sum_congr rfl fun e _ => by rw [hq' e, hk' j e])
  rw [tile_apply]
  show _ = Cert.Retention.outAt Q K W M b h s d'
  unfold Cert.Retention.outAt Cert.Retention.norm tileNorm
  simp only [hs, hv']

variable (m : (ℓ : Loc nD τ sig) → Buf (Elt Ideal) ℓ) (ρ : Dev nD → PrngReg)

/-! ## The arrays, and each window's block as rows of its array -/

/-- The four argument arrays as the region finds them. -/
abbrev qArr (c : Dev nD) : FVec Ideal S2x16x2048x64 .f32 := V m c main_arg0
abbrev kArr (c : Dev nD) : FVec Ideal S2x16x2048x64 .f32 := V m c main_arg1
abbrev vArr (c : Dev nD) : FVec Ideal S2x16x2048x64 .f32 := V m c main_arg2
abbrev maskArr (c : Dev nD) : FVec Ideal S2x16x2048x2048 .f32 := V m c main_arg3

theorem hz : (![0, 0, 0, 0] : Fin 4 → Nat) = fun _ => 0 := funext fun a => by fin_cases a <;> rfl

/-- The printed index maps, decided over the 128 grid points: every window follows the output's batch and head; `q` and
    the mask also follow its row tile; `k` and `v` stay at row tile 0; the last block index is 0 everywhere. -/
theorem idx_facts : ∀ t : Fin cfg0.N,
    (win0_0.index t (0 : Fin 4) = win0_4.index t (0 : Fin 4) ∧ win0_0.index t (1 : Fin 4) = win0_4.index t (1 : Fin 4)
      ∧ win0_0.index t (2 : Fin 4) = win0_4.index t (2 : Fin 4) ∧ win0_0.index t (3 : Fin 4) = 0)
    ∧ (win0_1.index t (0 : Fin 4) = win0_4.index t (0 : Fin 4) ∧ win0_1.index t (1 : Fin 4) = win0_4.index t (1 : Fin 4)
      ∧ win0_1.index t (2 : Fin 4) = 0 ∧ win0_1.index t (3 : Fin 4) = 0)
    ∧ (win0_2.index t (0 : Fin 4) = win0_4.index t (0 : Fin 4) ∧ win0_2.index t (1 : Fin 4) = win0_4.index t (1 : Fin 4)
      ∧ win0_2.index t (2 : Fin 4) = 0 ∧ win0_2.index t (3 : Fin 4) = 0)
    ∧ (win0_3.index t (0 : Fin 4) = win0_4.index t (0 : Fin 4) ∧ win0_3.index t (1 : Fin 4) = win0_4.index t (1 : Fin 4)
      ∧ win0_3.index t (2 : Fin 4) = win0_4.index t (2 : Fin 4) ∧ win0_3.index t (3 : Fin 4) = 0)
    ∧ (win0_4.index t (0 : Fin 4) < 2 ∧ win0_4.index t (1 : Fin 4) < 16 ∧ win0_4.index t (2 : Fin 4) < 4
      ∧ win0_4.index t (3 : Fin 4) = 0) :=
  (by decide +kernel : ∀ t : Fin grid0.N, _)

/-- Every (batch, head, row tile) is some grid point's. -/
theorem idx_onto : ∀ (b : Fin 2) (h : Fin 16) (i : Fin 4), ∃ t : Fin cfg0.N, win0_4.index t = ![b.val, h.val, i.val, 0] :=
  (by decide +kernel : ∀ (b : Fin 2) (h : Fin 16) (i : Fin 4), ∃ t : Fin grid0.N, win0_4.index t = ![b.val, h.val, i.val, 0])

/-- The `q` tile at point `t` is rows `512·i …` of `q` at the point's batch and head. -/
theorem q_read (c : Dev nD) (t : Fin cfg0.N) (x : S1x1x512x64.Idx) (i : S2x16x2048x64.Idx)
    (h0 : (i 0).val = win0_4.index t (0 : Fin 4)) (h1 : (i 1).val = win0_4.index t (1 : Fin 4))
    (h2 : (i 2).val = win0_4.index t (2 : Fin 4) * 512 + (x 2).val) (h3 : (i 3).val = (x 3).val) :
    (iblk m c 0 t : FVec Ideal S1x1x512x64 .f32) x = qArr m c i := by
  obtain ⟨⟨e0, e1, e2, e3⟩, -⟩ := idx_facts t
  have hx0 : (x 0).val < 1 := (x 0).isLt
  have hx1 : (x 1).val < 1 := (x 1).isLt
  unfold iblk
  rw [View.read_apply]
  show V m c main_arg0 _ = V m c main_arg0 i
  congr 1
  funext a
  apply Fin.ext
  match a with
  | ⟨0, _⟩ => show win0_0.index t (0 : Fin 4) * 1 + 1 * (x 0).val = (i 0).val; omega
  | ⟨1, _⟩ => show win0_0.index t (1 : Fin 4) * 1 + 1 * (x 1).val = (i 1).val; omega
  | ⟨2, _⟩ => show win0_0.index t (2 : Fin 4) * 512 + 1 * (x 2).val = (i 2).val; omega
  | ⟨3, _⟩ => show win0_0.index t (3 : Fin 4) * 64 + 1 * (x 3).val = (i 3).val; omega

/-- The `k` slab at point `t` is all of `k` at the point's batch and head. -/
theorem k_read (c : Dev nD) (t : Fin cfg0.N) (x : S1x1x2048x64.Idx) (i : S2x16x2048x64.Idx)
    (h0 : (i 0).val = win0_4.index t (0 : Fin 4)) (h1 : (i 1).val = win0_4.index t (1 : Fin 4))
    (h2 : (i 2).val = (x 2).val) (h3 : (i 3).val = (x 3).val) :
    (iblk m c 1 t : FVec Ideal S1x1x2048x64 .f32) x = kArr m c i := by
  obtain ⟨-, ⟨e0, e1, e2, e3⟩, -⟩ := idx_facts t
  have hx0 : (x 0).val < 1 := (x 0).isLt
  have hx1 : (x 1).val < 1 := (x 1).isLt
  unfold iblk
  rw [View.read_apply]
  show V m c main_arg1 _ = V m c main_arg1 i
  congr 1
  funext a
  apply Fin.ext
  match a with
  | ⟨0, _⟩ => show win0_1.index t (0 : Fin 4) * 1 + 1 * (x 0).val = (i 0).val; omega
  | ⟨1, _⟩ => show win0_1.index t (1 : Fin 4) * 1 + 1 * (x 1).val = (i 1).val; omega
  | ⟨2, _⟩ => show win0_1.index t (2 : Fin 4) * 2048 + 1 * (x 2).val = (i 2).val; omega
  | ⟨3, _⟩ => show win0_1.index t (3 : Fin 4) * 64 + 1 * (x 3).val = (i 3).val; omega

/-- The `v` slab at point `t` is all of `v` at the point's batch and head. -/
theorem v_read (c : Dev nD) (t : Fin cfg0.N) (x : S1x1x2048x64.Idx) (i : S2x16x2048x64.Idx)
    (h0 : (i 0).val = win0_4.index t (0 : Fin 4)) (h1 : (i 1).val = win0_4.index t (1 : Fin 4))
    (h2 : (i 2).val = (x 2).val) (h3 : (i 3).val = (x 3).val) :
    (iblk m c 2 t : FVec Ideal S1x1x2048x64 .f32) x = vArr m c i := by
  obtain ⟨-, -, ⟨e0, e1, e2, e3⟩, -⟩ := idx_facts t
  have hx0 : (x 0).val < 1 := (x 0).isLt
  have hx1 : (x 1).val < 1 := (x 1).isLt
  unfold iblk
  rw [View.read_apply]
  show V m c main_arg2 _ = V m c main_arg2 i
  congr 1
  funext a
  apply Fin.ext
  match a with
  | ⟨0, _⟩ => show win0_2.index t (0 : Fin 4) * 1 + 1 * (x 0).val = (i 0).val; omega
  | ⟨1, _⟩ => show win0_2.index t (1 : Fin 4) * 1 + 1 * (x 1).val = (i 1).val; omega
  | ⟨2, _⟩ => show win0_2.index t (2 : Fin 4) * 2048 + 1 * (x 2).val = (i 2).val; omega
  | ⟨3, _⟩ => show win0_2.index t (3 : Fin 4) * 64 + 1 * (x 3).val = (i 3).val; omega

/-- The mask tile at point `t` is rows `512·i …` of the mask at the point's batch and head. -/
theorem mask_read (c : Dev nD) (t : Fin cfg0.N) (x : S1x1x512x2048.Idx) (i : S2x16x2048x2048.Idx)
    (h0 : (i 0).val = win0_4.index t (0 : Fin 4)) (h1 : (i 1).val = win0_4.index t (1 : Fin 4))
    (h2 : (i 2).val = win0_4.index t (2 : Fin 4) * 512 + (x 2).val) (h3 : (i 3).val = (x 3).val) :
    (iblk m c 3 t : FVec Ideal S1x1x512x2048 .f32) x = maskArr m c i := by
  obtain ⟨-, -, -, ⟨e0, e1, e2, e3⟩, -⟩ := idx_facts t
  have hx0 : (x 0).val < 1 := (x 0).isLt
  have hx1 : (x 1).val < 1 := (x 1).isLt
  unfold iblk
  rw [View.read_apply]
  show V m c main_arg3 _ = V m c main_arg3 i
  congr 1
  funext a
  apply Fin.ext
  match a with
  | ⟨0, _⟩ => show win0_3.index t (0 : Fin 4) * 1 + 1 * (x 0).val = (i 0).val; omega
  | ⟨1, _⟩ => show win0_3.index t (1 : Fin 4) * 1 + 1 * (x 1).val = (i 1).val; omega
  | ⟨2, _⟩ => show win0_3.index t (2 : Fin 4) * 512 + 1 * (x 2).val = (i 2).val; omega
  | ⟨3, _⟩ => show win0_3.index t (3 : Fin 4) * 2048 + 1 * (x 3).val = (i 3).val; omega

/-! ## What a point writes back, and the whole array -/

/-- The result as one function of the argument arrays. -/
abbrev result (c : Dev nD) : FVec Ideal S2x16x2048x64 .f32 :=
  Cert.Retention.out (qArr m c) (kArr m c) (vArr m c) (maskArr m c)

/-- WHAT POINT `t` WRITES BACK is block `t` of the retention function of the argument arrays. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero hz]
  simp only [View.ld_unit_zero (S := S1x1x512x64) hz, View.ld_unit_zero (S := S1x1x2048x64) hz, View.ld_unit_zero (S := S1x1x512x2048) hz]
  funext y
  show k0_pay1 (F := Ideal) (iblk m c 0 t) (iblk m c 1 t) (iblk m c 3 t) (iblk m c 2 t) y
    = result m c (((cfg0.win 4).blk t).view.emb y)
  have hy0 : (y 0).val < 1 := (y 0).isLt
  have hy1 : (y 1).val < 1 := (y 1).isLt
  obtain ⟨-, -, -, -, ⟨-, -, -, e3⟩⟩ := idx_facts t
  have hI0 : ((((cfg0.win 4).blk t).view.emb y) 0).val = win0_4.index t (0 : Fin 4) := by
    show win0_4.index t (0 : Fin 4) * 1 + 1 * (y 0).val = _; omega
  have hI1 : ((((cfg0.win 4).blk t).view.emb y) 1).val = win0_4.index t (1 : Fin 4) := by
    show win0_4.index t (1 : Fin 4) * 1 + 1 * (y 1).val = _; omega
  have hI2 : ((((cfg0.win 4).blk t).view.emb y) 2).val = win0_4.index t (2 : Fin 4) * 512 + (y 2).val := by
    show win0_4.index t (2 : Fin 4) * 512 + 1 * (y 2).val = _; omega
  have hI3 : ((((cfg0.win 4).blk t).view.emb y) 3).val = (y 3).val := by
    show win0_4.index t (3 : Fin 4) * 64 + 1 * (y 3).val = _; omega
  exact tile_eq_out (qArr m c) (kArr m c) (vArr m c) (maskArr m c) (iblk m c 0 t) (iblk m c 1 t) (iblk m c 3 t) (iblk m c 2 t)
    y (((cfg0.win 4).blk t).view.emb y)
    (fun e => q_read m c t _ _ hI0 hI1 hI2 rfl)
    (fun j e => k_read m c t _ _ hI0 hI1 rfl rfl)
    (fun j => v_read m c t _ _ hI0 hI1 rfl hI3)
    (fun j => mask_read m c t _ _ hI0 hI1 hI2 rfl)

/-- An index of the result array is in point `t`'s block iff each coordinate is in the block's range on its axis. -/
theorem mem_blk (t : Fin cfg0.N) (i : S2x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v0).slice (win0_4.rect t)).set ↔ _
  rw [View.set_slice_whole, Rect.mem_set_unit]
  exact Iff.rfl

/-- The tiles cover the result array: row `s` of batch `b`, head `h` lies in the tile of point `(b, h, s / 512)`. -/
theorem cover (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- THE ARRAY after the run is the retention function of the argument arrays. -/
theorem final (c : Dev nD) : (dats m 0 c).arrAt 4 cfg0.N = result m c :=
  (dats m 0 c).arrAt_eq_of_cover 4 (result m c) (fun t _ => flushed_eq m c t) cover

/-- The kernel's run, read: the result array at the retention function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.ArrayValue

end
-- ==== Proof.ReferenceValue.lean ====
/-
  The reference, index by index.

  The reference forms the same masked scores `a(s, j)` and the same normaliser `r(s)` (its sum starts from the float
  zero, which adds nothing), divides every score by `r(s)` and only then multiplies by `v`:
      out[b,h,s,d] = ∑ j, (a(s, j) / r(s)) · v[b,h,j,d].
  With real entries that is the retention function in its other form (the divisor moved across the sum).
-/
import proofs.«400306_j38517266710798_3_alg».proof.Proof.Gen.ReferenceIdeal.Read
import proofs.«400306_j38517266710798_3_alg».proof.Proof.Retention

noncomputable section

namespace Cert.ReferenceIdeal.RefValue

open Cert.ReferenceIdeal Cert.ReferenceIdeal.Read Idealize.ShloMosaic Idealize.ShloMosaic.ValueIdx
open scoped BigOperators

variable (x0 x1 x2 : FVec Ideal S2x16x2048x64 .f32) (x3 : FVec Ideal S2x16x2048x2048 .f32)

/-- The masked scores: the batched `q kᵀ` times the mask. -/
theorem scores_apply (b : Fin 2) (h : Fin 16) (s j : Fin 2048) :
    val_main_v1 (F := Ideal) x0 x1 x3 (ix4 b h s j) = Cert.Retention.score x0 x1 x3 b h s j := by
  rw [val_main_v1_apply, val_main_v0_apply]
  unfold Cert.Retention.score
  refine congrArg (· * _) (Finset.sum_congr rfl fun e _ => ?_)
  have el : lidx_main_v0 (ix4 b h s j) e = ix4 b h s e :=
    funext fun a => Fin.ext (by match a with | ⟨0, _⟩ => rfl | ⟨1, _⟩ => rfl | ⟨2, _⟩ => rfl | ⟨3, _⟩ => rfl)
  have er : ridx_main_v0 (ix4 b h s j) e = ix4 b h j e :=
    funext fun a => Fin.ext (by match a with | ⟨0, _⟩ => rfl | ⟨1, _⟩ => rfl | ⟨2, _⟩ => rfl | ⟨3, _⟩ => rfl)
  rw [el, er]

/-- The normaliser, repeated along the key axis: at `(b, h, s, j)` it is `r(s)`, whatever `j`. -/
theorem norm_apply (b : Fin 2) (h : Fin 16) (s j : Fin 2048) :
    val_main_v7 (F := Ideal) x0 x1 x3 (ix4 b h s j) = Cert.Retention.norm x0 x1 x3 b h s := by
  rw [val_main_v7_apply, val_main_v6_apply, val_main_v4_apply, val_main_v5_apply, val_main_cst_0_apply, val_main_v3_apply,
    val_main_cst_apply]
  show max (Ideal.ofBits .f32 0x00000000#32 + _) (Ideal.ofBits .f32 0x3F800000#32) = _
  rw [Ideal.ofBits_zero_f32, zero_add]
  unfold Cert.Retention.norm
  refine congrArg (max · _) (Finset.sum_congr rfl fun k _ => ?_)
  have ei : idx_main_v3 (idx_main_v4 (idx_main_v7 (ix4 b h s j))) k = ix4 b h s k :=
    funext fun a => Fin.ext (by match a with | ⟨0, _⟩ => rfl | ⟨1, _⟩ => rfl | ⟨2, _⟩ => rfl | ⟨3, _⟩ => rfl)
  rw [ei, val_main_v2_apply, scores_apply]
  rfl

/-- The reference's result at `(b, h, s, d)`: every score normalised, then the product with `v`. -/
theorem result_apply (b : Fin 2) (h : Fin 16) (s : Fin 2048) (d : Fin 64) :
    val_main_v9 (F := Ideal) x0 x1 x2 x3 (ix4 b h s d) = Cert.Retention.outAt' x0 x1 x2 x3 b h s d := by
  rw [val_main_v9_apply]
  unfold Cert.Retention.outAt'
  refine Finset.sum_congr rfl fun j _ => ?_
  have el : lidx_main_v9 (ix4 b h s d) j = ix4 b h s j :=
    funext fun a => Fin.ext (by match a with | ⟨0, _⟩ => rfl | ⟨1, _⟩ => rfl | ⟨2, _⟩ => rfl | ⟨3, _⟩ => rfl)
  have er : ridx_main_v9 (ix4 b h s d) j = ix4 b h j d :=
    funext fun a => Fin.ext (by match a with | ⟨0, _⟩ => rfl | ⟨1, _⟩ => rfl | ⟨2, _⟩ => rfl | ⟨3, _⟩ => rfl)
  rw [el, er, val_main_v8_apply, scores_apply, norm_apply]
  rfl

/-- With real entries the reference's result array is the retention function of its arguments. -/
theorem result_eq (h0 : ∀ i, Cert.Retention.IsReal (x0 i)) (h1 : ∀ i, Cert.Retention.IsReal (x1 i))
    (h2 : ∀ i, Cert.Retention.IsReal (x2 i)) (h3 : ∀ i, Cert.Retention.IsReal (x3 i)) :
    val_main_v9 (F := Ideal) x0 x1 x2 x3 = Cert.Retention.out x0 x1 x2 x3 := by
  funext i
  obtain ⟨b, h, s, d, rfl⟩ : ∃ (b : Fin 2) (h : Fin 16) (s : Fin 2048) (d : Fin 64), i = ix4 b h s d :=
    ⟨i 0, i 1, i 2, i 3, eq_ix4 i⟩
  rw [result_apply]
  exact Cert.Retention.outAt'_eq h0 h1 h2 h3 b h s d

end Cert.ReferenceIdeal.RefValue

end
-- ==== Proof.FiniteInputs.lean ====
/-
  The precondition, read back: every entry of the four arguments is a real number.

  The printed predicate is the conjunction of four `jnp.all(|x| < +inf)`, one per argument. A conjunction of `i1` words
  is 1 only if each is; an `and`-reduction over every axis is 1 only if every element is; and `|x| < +inf` on the
  extended reals excludes exactly the two infinities (`|x|` being `max x (-x)`, which is `+inf` at both).
-/
import proofs.«400306_j38517266710798_3_alg».proof.Pre_finite_inputs
import proofs.«400306_j38517266710798_3_alg».proof.Proof.Retention
import Idealize.ShloMosaic.Lib.ReduceAll
import Idealize.ShloMosaic.Lib.ValueIdx

noncomputable section

namespace Cert.FiniteInputs

open Idealize.ShloMosaic Cert.Retention

/-- The float word `0x7F800000` is `+inf`. -/
theorem inf_f32 : Ideal.ofBits .f32 0x7F800000#32 = (⊤ : EReal) := by simp [Ideal.ofBits, Ideal.ieee]

/-- An extended real whose absolute value is below `+inf` is a real number. -/
theorem isReal_of_abs_lt_inf (x : EReal)
    (h : Ideal.cmp .olt (max x (-x)) (Ideal.ofBits .f32 0x7F800000#32) = 1#1) : IsReal x := by
  rw [inf_f32] at h
  induction x using EReal.rec with
  | bot => simp [Ideal.cmp] at h
  | coe r => exact ⟨r, rfl⟩
  | top => simp [Ideal.cmp] at h

instance : Subsingleton Cert.Pre_finite_inputs.S_.Idx := ⟨fun _ _ => funext fun d => d.elim0⟩

variable [Cert.Pre_finite_inputs.Facts]

open Cert.Pre_finite_inputs in
/-- Where the printed predicate is all ones, every entry of every argument is real. -/
theorem isReal_of_pre (a0 a1 a2 : FVec Ideal S2x16x2048x64 .f32) (a3 : FVec Ideal S2x16x2048x2048 .f32)
    (hpre : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have h := congrFun hpre ValueIdx.ix0
  dsimp only [Cert.Pre_finite_inputs.fn, Cert.Pre_finite_inputs.fn_part1] at h
  obtain ⟨h012, h3⟩ := IntOp.andi_eq_one.1 h
  obtain ⟨h01, h2⟩ := IntOp.andi_eq_one.1 h012
  obtain ⟨h0, h1⟩ := IntOp.andi_eq_one.1 h01
  exact ⟨fun i => isReal_of_abs_lt_inf _ (Host.reduce_andi_all _ _ _ _ ValueIdx.ix0 h0 i),
    fun i => isReal_of_abs_lt_inf _ (Host.reduce_andi_all _ _ _ _ ValueIdx.ix0 h1 i),
    fun i => isReal_of_abs_lt_inf _ (Host.reduce_andi_all _ _ _ _ ValueIdx.ix0 h2 i),
    fun i => isReal_of_abs_lt_inf _ (Host.reduce_andi_all _ _ _ _ ValueIdx.ix0 h3 i)⟩

end Cert.FiniteInputs

end
-- ==== Proof.lean ====
/-
  Linear retention: a tiled kernel against its einsum reference, equal over the extended reals for finite inputs.

  Both programs form the masked scores  a(s, j) = (∑ e, q[b,h,s,e] · k[b,h,j,e]) · mask[b,h,s,j]  and the row normaliser
  r(s) = max (∑ j, |a(s, j)|) 1.  The kernel, one grid point per (batch, head, 512-row tile), multiplies the unnormalised
  scores by `v` and divides the small product once,  (∑ j, a(s, j) · v[j, d]) / r(s);  the reference divides every score
  first,  ∑ j, (a(s, j) / r(s)) · v[j, d].  When every entry of `q`, `k`, `v` and the mask is a real number — which is what
  the precondition says — every a(s, j) is real and r(s) is a real number at least 1, so dividing by it is multiplying
  by its reciprocal, and the reciprocal moves across the finite sum: the two results are equal. (At an infinite entry
  the step across the sum fails on the extended reals, so the precondition is used.)

  The modules: `Retention` (the function in both forms, and the law between them over real entries); `Layout`
  (unit axes dropped and added, a column repeated); `BlockValue` (what one grid point stores, index by index: the two
  matrix products as sums, the row sum); `KernelArray` (each tile is the function restricted to its rows, the tiles
  cover the array); `ReferenceValue` (the reference's stages read at an index); `FiniteInputs` (the printed
  precondition read back as: every entry is real). The frames of the two kernel programs are the generated ones; the
  reference's frame is its generated run with the result dropped. The idealization rewrote nothing, so `preserves` is
  `True`.
-/
import proofs.«400306_j38517266710798_3_alg».proof.Defs
import proofs.«400306_j38517266710798_3_alg».proof.Proof.Gen.Kernel
import proofs.«400306_j38517266710798_3_alg».proof.Proof.Gen.Kernel.Frame
import proofs.«400306_j38517266710798_3_alg».proof.Proof.Gen.KernelIdeal
import proofs.«400306_j38517266710798_3_alg».proof.Proof.Gen.KernelIdeal.Frame
import proofs.«400306_j38517266710798_3_alg».proof.Proof.Gen.KernelIdeal.Value
import proofs.«400306_j38517266710798_3_alg».proof.Proof.Gen.ReferenceIdeal
import proofs.«400306_j38517266710798_3_alg».proof.Proof.Gen.ReferenceIdeal.Run
import proofs.«400306_j38517266710798_3_alg».proof.Proof.Gen.ReferenceIdeal.Read
import proofs.«400306_j38517266710798_3_alg».proof.Proof.Gen.Pre_finite_inputs
import proofs.«400306_j38517266710798_3_alg».proof.Proof.KernelArray
import proofs.«400306_j38517266710798_3_alg».proof.Proof.ReferenceValue
import proofs.«400306_j38517266710798_3_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the retention function of the (agreeing) arguments: the kernel's tile by
    tile, the reference's in its normalise-first form, equal to it because the precondition makes every entry real. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3⟩ := Cert.FiniteInputs.isReal_of_pre _ _ _ _ (hpre c)
  rw [Cert.ReferenceIdeal.Read.val_main_v9_eq, (hagree c).1, (hagree c).2.1, (hagree c).2.2.1, (hagree c).2.2.2]
  exact Cert.ReferenceIdeal.RefValue.result_eq _ _ _ _ f0 f1 f2 f3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
